-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S320x8192 : Shape := ⟨2, ![320, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S320x8192, .f32⟩
  | .local _ .vmem, ⟨1, _⟩ => ⟨S320x8192, .f32⟩
  | .local _ .vmem, ⟨2, _⟩ => ⟨S320x8192, .f32⟩
  | .local _ .vmem, ⟨3, _⟩ => ⟨S320x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S320x8192_S320x8192_0_0 : ∀ a, (![0, 0] : Fin 2 → Nat) a + S320x8192.size a ≤ S320x8192.size a
  h_S320x8192 : 0 < S320x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S320x8192.size a < S8192x8192.size a
  hwx0_0 : ∀ i : grid0.Coords, EltTy.bits .f32 = 32 ∨ (Rect.unit (s := S8192x8192) (fun a => cc0_transform_0 i a * S320x8192.size a) (fun a => (Pipeline.Clip.of (cc0_transform_0 i a) (S320x8192.size a) (S8192x8192.size a)).extent (S320x8192.size a)) fun a => Pipeline.Clip.inb (Pipeline.Clip.ok_of (hstart0_0 i a))).WholeWords (EltTy.packing .f32)
  hwxs0_0 : ∀ i : grid0.Coords, EltTy.bits .f32 = 32 ∨ (Rect.unit (s := S320x8192) (fun _ => 0) (fun a => (Pipeline.Clip.of (cc0_transform_0 i a) (S320x8192.size a) (S8192x8192.size a)).extent (S320x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S320x8192.size a < S8192x8192.size a
  hwx0_1 : ∀ i : grid0.Coords, EltTy.bits .f32 = 32 ∨ (Rect.unit (s := S8192x8192) (fun a => cc0_transform_1 i a * S320x8192.size a) (fun a => (Pipeline.Clip.of (cc0_transform_1 i a) (S320x8192.size a) (S8192x8192.size a)).extent (S320x8192.size a)) fun a => Pipeline.Clip.inb (Pipeline.Clip.ok_of (hstart0_1 i a))).WholeWords (EltTy.packing .f32)
  hwxs0_1 : ∀ i : grid0.Coords, EltTy.bits .f32 = 32 ∨ (Rect.unit (s := S320x8192) (fun _ => 0) (fun a => (Pipeline.Clip.of (cc0_transform_1 i a) (S320x8192.size a) (S8192x8192.size a)).extent (S320x8192.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S320x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S320x8192.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.BodyWords.lean ====
/-
  The frame run of the kernel's program: one row-block of `x` per grid point, 26 points over 8192 rows in blocks of
  320, so that the last block (rows 8000‥8319) overhangs the array by 128 rows. At every point the body loads the
  whole staging block of `x`, computes `x · 2 + 9` entry by entry, and stores the whole staging block of the result.

  On the rows inside the array the input's staging block holds `x`'s rows; past the array's end it holds words that
  nothing names, and the body computes from them too, into rows of the result's staging block that the cut
  write-back never writes. So the proof data states each staging block as the rows inside the array FILLED OUT with a
  word of the proof's choosing (the zero word), and the body obligation is the loose one: each block is handed back
  stated on the rows inside the array only. That suffices because the body is pointwise: entry `y` of what it stores
  depends on entry `y` of what it loaded and on nothing else (`pay_apply`), so two input blocks that agree on the rows
  inside the array give result blocks that agree there (`cut_pay_congr`).

  Everything here is stated at any float instance `F`, so the same argument serves the program as printed and its
  idealization.
-/
import proofs.«423164_j73667279061057_3_alg».proof.Proof.Gen.Kernel.Frame
import proofs.«423164_j73667279061057_3_alg».proof.Proof.Gen.Kernel.Skeleton
import Idealize.ShloMosaic.Lib.Pipeline.Kit
import Idealize.ShloMosaic.Lib.Pipeline.Value
import Idealize.ShloMosaic.Lib.Tactic

set_option maxRecDepth 16384

noncomputable section

namespace Cert.Kernel.Affine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's arithmetic, one entry at a time -/

/-- `x ↦ x · 2 + 9`: what the body makes of one loaded entry (the two constants are the words of 2.0 and 9.0). -/
def aff (x : F .f32) : F .f32 :=
  FloatOps.addf (FloatOps.mulf x (Scalar.ofBits .f32 0x40000000#32)) (Scalar.ofBits .f32 0x41100000#32)

/-- The stored vector is the loaded one mapped entry by entry: the product with the splat of 2 and the sum with the
    splat of 9 are both lane-wise. -/
theorem pay_apply (v : Vec F S320x8192 .f32) (y : S320x8192.Idx) : k0_pay1 v y = aff (v y) := rfl

variable (m : (ℓ : Loc nD τ sig) → Buf (Elt F) ℓ) (ρ : Dev nD → PrngReg)

/-! ## What the staging blocks hold -/

/-- The input's staging block after the fetch at point `t`, with the zero word past the array's end: rows
    `320·t ‥ 320·t + 319` of `x` where those are rows of `x`. -/
def xbuf (c : Dev nD) (t : Fin cfg0.N) : Vec F S320x8192 .f32 :=
  win0_0.fill (grid0.coords t) (fun _ => Scalar.ofBits .f32 0#32) (iblk m c 0 t)

/-- The result's staging block after the body at point `t`: the body's map of that. -/
def obuf (c : Dev nD) (t : Fin cfg0.N) : Vec F S320x8192 .f32 := k0_pay1 (xbuf m c t)

/-- Result blocks of input blocks that agree on the rows inside the array agree there. -/
theorem cut_pay_congr (i : grid0.Coords) (X Y : Vec F S320x8192 .f32) (h : win0_0.cut i X = win0_0.cut i Y) :
    win0_0.cut i (k0_pay1 X) = win0_0.cut i (k0_pay1 Y) := by
  funext j
  show k0_pay1 X (win0_0.xinj i j) = k0_pay1 Y (win0_0.xinj i j)
  rw [pay_apply, pay_apply]
  exact congrArg aff (congrFun h j)

/-! ## The proof data -/

/-- The one pipeline's proof data on core `c`: the arrays as the region finds them; after the body at point `t` the
    input's staging block at `xbuf` and the result's at `obuf`; the invariant the scoped rest and the generator
    register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => obuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xbuf m c t := by dsimp only [dats]
theorem after_o (c : Dev nD) (t : Fin cfg0.N) : (dats m 0 c).after 1 t = obuf m c t := by dsimp only [dats]

/-- What the body finds in the input's staging block: it is fetched at every point, so the rows of `x` inside the
    array, and past the array's end whatever the overwrite before the fetch left (`d`). -/
theorem before_x (c : Dev nD) (t : Fin cfg0.N) (d) :
    (dats m 0 c).before 0 t d = win0_0.fill (grid0.coords t) d (iblk m c 0 t) := by
  rw [Dat.before_fetched _ 0 t (fetch0_0 t)]
  rfl

/-- What it finds in the result's: anything. The block is written back at every point, so it is fresh at every
    point. -/
theorem before_o (c : Dev nD) (t : Fin cfg0.N) (d) : (dats m 0 c).before 1 t d = d := by
  refine Dat.before_out_reset _ 1 rfl t ?_ d
  by_cases h : t.val = 0
  · exact .inl h
  · exact .inr ⟨h, flush0_1 _⟩

/-! ## The body's triple -/

/-- The body on whole staging memrefs, the input's holding `x0` and the result's anything: two whole loads (the
    second, of the result's block, is dead), the lane-wise map, one whole unmasked store. The input's block is left as
    it was and the result's holds the map of `x0`. -/
theorem sound_kernel (c : Dev nD) (E : Set ℕ) (i : grid0.Coords)
    (arg1 : Memref sig .tc .vmem S320x8192 .f32) (harg1 : arg1.IsWhole)
    (arg2 : Memref sig .tc .vmem S320x8192 .f32) (harg2 : arg2.IsWhole)
    (x0 : Vec F S320x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__affine_kernel i arg1 harg1 arg2 harg2) K := by
  simp only [cc0__affine_kernel_eq_skeleton]; unfold cc0__affine_kernel_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  -- the one store is through the whole block at offset zero: reading the block back gives the stored vector, and
  -- the load it was computed from, through the same rectangle, read the input block's contents
  have hz : (![0, 0] : Fin 2 → Nat) = fun _ => 0 := funext fun a => by fin_cases a <;> rfl
  rw [View.read_writes_eq_canon _ _ _ (fun y => ⟨_, List.mem_singleton_self _, View.mem_set_unit_zero hz inb_S320x8192_S320x8192_0_0 y⟩),
    View.canon_unit_zero hz, View.readAt_eq_ld, View.ld_unit_zero hz]

/-! ## The body obligation, at a generic point -/

/-- What the body is called with at point `t`: the invariant, what the core owes, and the two current staging blocks
    at what they then hold. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns: each block stated on the rows inside the array (both windows are cut at the array's end). -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

/-- The body at any point. The input's block arrives as `x`'s rows filled out with some `d0`; it is handed back as it
    came, which on the rows inside the array is `xbuf`. The result's block leaves holding the map of that, which on the
    rows inside the array is the map of `xbuf` (`cut_pay_congr`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_o]
  rw [show (dats m 0 c).Φ t.succ = (dats m 0 c).Φ t.castSucc from rfl,
    show (dats m 0 c).owesAt () t.succ = (dats m 0 c).owesAt () t.castSucc from rfl,
    after_x, after_o]
  iintro ⟨HΦ, Ho, ⟨%d0, H0⟩, ⟨%d1, H1⟩⟩
  iapply (sound_kernel c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  have hx : win0_0.cut (grid0.coords t) (xbuf m c t) = iblk m c 0 t := win0_0.cut_fill _ _ _
  isplitl [H0]
  · iexists d0
    rw [hx]; try iexact H0
  · iexists k0_pay1 (win0_0.fill (grid0.coords t) d0 (iblk m c 0 t))
    have ho : win0_0.fill (grid0.coords t) (k0_pay1 (win0_0.fill (grid0.coords t) d0 (iblk m c 0 t)))
          (win0_0.cut (grid0.coords t) (obuf m c t))
        = k0_pay1 (win0_0.fill (grid0.coords t) d0 (iblk m c 0 t)) :=
      win0_0.fill_congr_cut _ (cut_pay_congr _ _ _ (by rw [win0_0.cut_fill, hx]))
    change _ ⊢ owns (c : Thread nD τ) (st0_1 t) fullShare
      (win0_0.fill (grid0.coords t) (k0_pay1 (win0_0.fill (grid0.coords t) d0 (iblk m c 0 t)))
        (win0_0.cut (grid0.coords t) (obuf m c t)))
    rw [ho]; try iexact H1

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run -/

set_option backward.isDefEq.respectTransparency.types false in
/-- For any values, from any memory with zero counters: every weakly fair execution of @main terminates, and every
    final state has each array of the pipeline at what the library computes from the proof data — `x` as launched,
    the result at its launch contents overwritten block by block by the rows inside the array of `obuf`. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The program runs, faults nowhere, and leaves `x` as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Affine

end
-- ==== Proof.BodyIdeal.lean ====
/-
  The frame run of the kernel's program: one row-block of `x` per grid point, 26 points over 8192 rows in blocks of
  320, so that the last block (rows 8000‥8319) overhangs the array by 128 rows. At every point the body loads the
  whole staging block of `x`, computes `x · 2 + 9` entry by entry, and stores the whole staging block of the result.

  On the rows inside the array the input's staging block holds `x`'s rows; past the array's end it holds words that
  nothing names, and the body computes from them too, into rows of the result's staging block that the cut
  write-back never writes. So the proof data states each staging block as the rows inside the array FILLED OUT with a
  word of the proof's choosing (the zero word), and the body obligation is the loose one: each block is handed back
  stated on the rows inside the array only. That suffices because the body is pointwise: entry `y` of what it stores
  depends on entry `y` of what it loaded and on nothing else (`pay_apply`), so two input blocks that agree on the rows
  inside the array give result blocks that agree there (`cut_pay_congr`).

  Everything here is stated at any float instance `F`, so the same argument serves the program as printed and its
  idealization.
-/
import proofs.«423164_j73667279061057_3_alg».proof.Proof.Gen.KernelIdeal.Frame
import proofs.«423164_j73667279061057_3_alg».proof.Proof.Gen.KernelIdeal.Skeleton
import Idealize.ShloMosaic.Lib.Pipeline.Kit
import Idealize.ShloMosaic.Lib.Pipeline.Value
import Idealize.ShloMosaic.Lib.Tactic

set_option maxRecDepth 16384

noncomputable section

namespace Cert.KernelIdeal.Affine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's arithmetic, one entry at a time -/

/-- `x ↦ x · 2 + 9`: what the body makes of one loaded entry (the two constants are the words of 2.0 and 9.0). -/
def aff (x : F .f32) : F .f32 :=
  FloatOps.addf (FloatOps.mulf x (Scalar.ofBits .f32 0x40000000#32)) (Scalar.ofBits .f32 0x41100000#32)

/-- The stored vector is the loaded one mapped entry by entry: the product with the splat of 2 and the sum with the
    splat of 9 are both lane-wise. -/
theorem pay_apply (v : Vec F S320x8192 .f32) (y : S320x8192.Idx) : k0_pay1 v y = aff (v y) := rfl

variable (m : (ℓ : Loc nD τ sig) → Buf (Elt F) ℓ) (ρ : Dev nD → PrngReg)

/-! ## What the staging blocks hold -/

/-- The input's staging block after the fetch at point `t`, with the zero word past the array's end: rows
    `320·t ‥ 320·t + 319` of `x` where those are rows of `x`. -/
def xbuf (c : Dev nD) (t : Fin cfg0.N) : Vec F S320x8192 .f32 :=
  win0_0.fill (grid0.coords t) (fun _ => Scalar.ofBits .f32 0#32) (iblk m c 0 t)

/-- The result's staging block after the body at point `t`: the body's map of that. -/
def obuf (c : Dev nD) (t : Fin cfg0.N) : Vec F S320x8192 .f32 := k0_pay1 (xbuf m c t)

/-- Result blocks of input blocks that agree on the rows inside the array agree there. -/
theorem cut_pay_congr (i : grid0.Coords) (X Y : Vec F S320x8192 .f32) (h : win0_0.cut i X = win0_0.cut i Y) :
    win0_0.cut i (k0_pay1 X) = win0_0.cut i (k0_pay1 Y) := by
  funext j
  show k0_pay1 X (win0_0.xinj i j) = k0_pay1 Y (win0_0.xinj i j)
  rw [pay_apply, pay_apply]
  exact congrArg aff (congrFun h j)

/-! ## The proof data -/

/-- The one pipeline's proof data on core `c`: the arrays as the region finds them; after the body at point `t` the
    input's staging block at `xbuf` and the result's at `obuf`; the invariant the scoped rest and the generator
    register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => obuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xbuf m c t := by dsimp only [dats]
theorem after_o (c : Dev nD) (t : Fin cfg0.N) : (dats m 0 c).after 1 t = obuf m c t := by dsimp only [dats]

/-- What the body finds in the input's staging block: it is fetched at every point, so the rows of `x` inside the
    array, and past the array's end whatever the overwrite before the fetch left (`d`). -/
theorem before_x (c : Dev nD) (t : Fin cfg0.N) (d) :
    (dats m 0 c).before 0 t d = win0_0.fill (grid0.coords t) d (iblk m c 0 t) := by
  rw [Dat.before_fetched _ 0 t (fetch0_0 t)]
  rfl

/-- What it finds in the result's: anything. The block is written back at every point, so it is fresh at every
    point. -/
theorem before_o (c : Dev nD) (t : Fin cfg0.N) (d) : (dats m 0 c).before 1 t d = d := by
  refine Dat.before_out_reset _ 1 rfl t ?_ d
  by_cases h : t.val = 0
  · exact .inl h
  · exact .inr ⟨h, flush0_1 _⟩

/-! ## The body's triple -/

/-- The body on whole staging memrefs, the input's holding `x0` and the result's anything: two whole loads (the
    second, of the result's block, is dead), the lane-wise map, one whole unmasked store. The input's block is left as
    it was and the result's holds the map of `x0`. -/
theorem sound_kernel (c : Dev nD) (E : Set ℕ) (i : grid0.Coords)
    (arg1 : Memref sig .tc .vmem S320x8192 .f32) (harg1 : arg1.IsWhole)
    (arg2 : Memref sig .tc .vmem S320x8192 .f32) (harg2 : arg2.IsWhole)
    (x0 : Vec F S320x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__affine_kernel i arg1 harg1 arg2 harg2) K := by
  simp only [cc0__affine_kernel_eq_skeleton]; unfold cc0__affine_kernel_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  -- the one store is through the whole block at offset zero: reading the block back gives the stored vector, and
  -- the load it was computed from, through the same rectangle, read the input block's contents
  have hz : (![0, 0] : Fin 2 → Nat) = fun _ => 0 := funext fun a => by fin_cases a <;> rfl
  rw [View.read_writes_eq_canon _ _ _ (fun y => ⟨_, List.mem_singleton_self _, View.mem_set_unit_zero hz inb_S320x8192_S320x8192_0_0 y⟩),
    View.canon_unit_zero hz, View.readAt_eq_ld, View.ld_unit_zero hz]

/-! ## The body obligation, at a generic point -/

/-- What the body is called with at point `t`: the invariant, what the core owes, and the two current staging blocks
    at what they then hold. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns: each block stated on the rows inside the array (both windows are cut at the array's end). -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

/-- The body at any point. The input's block arrives as `x`'s rows filled out with some `d0`; it is handed back as it
    came, which on the rows inside the array is `xbuf`. The result's block leaves holding the map of that, which on the
    rows inside the array is the map of `xbuf` (`cut_pay_congr`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_o]
  rw [show (dats m 0 c).Φ t.succ = (dats m 0 c).Φ t.castSucc from rfl,
    show (dats m 0 c).owesAt () t.succ = (dats m 0 c).owesAt () t.castSucc from rfl,
    after_x, after_o]
  iintro ⟨HΦ, Ho, ⟨%d0, H0⟩, ⟨%d1, H1⟩⟩
  iapply (sound_kernel c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  have hx : win0_0.cut (grid0.coords t) (xbuf m c t) = iblk m c 0 t := win0_0.cut_fill _ _ _
  isplitl [H0]
  · iexists d0
    rw [hx]; try iexact H0
  · iexists k0_pay1 (win0_0.fill (grid0.coords t) d0 (iblk m c 0 t))
    have ho : win0_0.fill (grid0.coords t) (k0_pay1 (win0_0.fill (grid0.coords t) d0 (iblk m c 0 t)))
          (win0_0.cut (grid0.coords t) (obuf m c t))
        = k0_pay1 (win0_0.fill (grid0.coords t) d0 (iblk m c 0 t)) :=
      win0_0.fill_congr_cut _ (cut_pay_congr _ _ _ (by rw [win0_0.cut_fill, hx]))
    change _ ⊢ owns (c : Thread nD τ) (st0_1 t) fullShare
      (win0_0.fill (grid0.coords t) (k0_pay1 (win0_0.fill (grid0.coords t) d0 (iblk m c 0 t)))
        (win0_0.cut (grid0.coords t) (obuf m c t)))
    rw [ho]; try iexact H1

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run -/

set_option backward.isDefEq.respectTransparency.types false in
/-- For any values, from any memory with zero counters: every weakly fair execution of @main terminates, and every
    final state has each array of the pipeline at what the library computes from the proof data — `x` as launched,
    the result at its launch contents overwritten block by block by the rows inside the array of `obuf`. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The program runs, faults nowhere, and leaves `x` as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Affine

end
-- ==== Proof.ArrayIdeal.lean ====
/-
  What the result array holds after the run: `x · 2 + 9`, entry by entry, on all 8192 rows.

  Point `t` writes back the rows inside the array of the result's staging block, and those are the body's map of
  `x`'s rows `320·t ‥` (`flushed_eq`): the two windows have one index map, so the rows the fetch read are the rows the
  write-back writes. The 26 blocks cover the array: row `r` lies in the block of point `r / 320`, whose rows inside
  the array are `320·(r/320) ‥ 320·(r/320) + min 320 (8192 − 320·(r/320)) − 1` — for the last point the 192 rows
  8000‥8191 (`cover`). So the array ends holding the map of the whole of `x` (`final`), whatever the body computed
  from the words past the array's end.
-/
import proofs.«423164_j73667279061057_3_alg».proof.Proof.BodyIdeal

set_option maxRecDepth 16384

noncomputable section

namespace Cert.KernelIdeal.Affine

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The body's map of the whole argument array. -/
def result (c : Dev nD) : Buf (Elt F) ((c : Thread nD τ).loc main_v0) :=
  fun i => aff (V m c main_arg0 i)

/-- The two index maps and the cuts, decided over the grid: block `t` starts at row `320·t` and lane 0, keeps
    `min 320 (8192 − 320·t)` rows inside the array, and spans all 8192 lanes. -/
theorem grid_facts : ∀ t : Fin cfg0.N, win0_1.index t 0 = t.val ∧ win0_1.index t 1 = 0
    ∧ win0_1.xsize (grid0.coords t) 0 = min 320 (8192 - 320 * t.val) ∧ win0_1.xsize (grid0.coords t) 1 = 8192 :=
  (by decide +kernel : ∀ t : Fin grid0.N, win0_1.index t 0 = t.val ∧ win0_1.index t 1 = 0
    ∧ win0_1.xsize (grid0.coords t) 0 = min 320 (8192 - 320 * t.val) ∧ win0_1.xsize (grid0.coords t) 1 = 8192)

/-- On a row inside the array the result's staging block holds the map of `x`'s entry there: the filler past the
    array's end is not read. -/
theorem obuf_xinj (c : Dev nD) (t : Fin cfg0.N) (j : (win0_0.xblock (grid0.coords t)).Idx) :
    obuf m c t (win0_0.xinj (grid0.coords t) j) = aff (iblk m c 0 t j) := by
  unfold obuf
  rw [pay_apply]
  unfold xbuf
  rw [win0_0.fill_xinj]

/-- What point `t` writes back is block `t` of `result`: the two windows cut alike and read the same rows. -/
theorem flushed_eq (c : Dev nD) (t : Fin cfg0.N) :
    (dats m 0 c).flushed 1 t = ((cfg0.win 1).blk t).view.read (Elt F) (result m c) := by
  funext j
  show (dats m 0 c).after 1 t (win0_1.xinj (grid0.coords t) j) = _
  rw [after_o]
  exact (obuf_xinj m c t j).trans rfl

/-- An index of the array is in point `t`'s block iff on each axis it lies among the block's coordinates inside the
    array. -/
theorem mem_blk (t : Fin cfg0.N) (i : S8192x8192.Idx) :
    i ∈ (win0_1.blk t).view.set ↔ ∀ a, win0_1.index t a * win0_1.size a ≤ (i a : Nat)
      ∧ (i a : Nat) < win0_1.index t a * win0_1.size a + win0_1.xsize (grid0.coords t) a := by
  show i ∈ ((View.whole main_v0).slice (win0_1.rect t)).set ↔ _
  rw [View.set_slice_whole, Rect.mem_set_unit]

/-- Every index of the array is in the block of the point its row falls to. -/
theorem cover (i : S8192x8192.Idx) :
    ∃ t : Fin cfg0.N, (cfg0.win 1).flush t = true ∧ i ∈ ((cfg0.win 1).blk t).view.set := by
  have hr : (i 0 : Nat) < 8192 := (i 0).isLt
  have hc : (i 1 : Nat) < 8192 := (i 1).isLt
  have hN : (i 0 : Nat) / 320 < cfg0.N := by
    show _ < grid0.N
    rw [N_0]; omega
  refine ⟨⟨(i 0 : Nat) / 320, hN⟩, flush0_1 _, ?_⟩
  show i ∈ (win0_1.blk ⟨(i 0 : Nat) / 320, hN⟩).view.set
  rw [mem_blk]
  obtain ⟨h0, h1, h2, h3⟩ := grid_facts ⟨(i 0 : Nat) / 320, hN⟩
  intro a
  match a with
  | ⟨0, _⟩ =>
    show win0_1.index _ 0 * 320 ≤ (i 0 : Nat) ∧ (i 0 : Nat) < win0_1.index _ 0 * 320 + win0_1.xsize _ 0
    rw [h0, h2]
    show (i 0 : Nat) / 320 * 320 ≤ (i 0 : Nat) ∧ (i 0 : Nat) < (i 0 : Nat) / 320 * 320 + min 320 (8192 - 320 * ((i 0 : Nat) / 320))
    omega
  | ⟨1, _⟩ =>
    show win0_1.index _ 1 * 8192 ≤ (i 1 : Nat) ∧ (i 1 : Nat) < win0_1.index _ 1 * 8192 + win0_1.xsize _ 1
    rw [h1, h3]
    omega

/-- The result array after the last write-back. -/
theorem final (c : Dev nD) : (dats m 0 c).arrAt 1 cfg0.N = result m c :=
  (dats m 0 c).arrAt_eq_of_cover 1 (result m c) (fun t _ => flushed_eq m c t) (cover)

/-- The run with the result named: it ends holding `result`, and `x` what it held. -/
theorem run : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)) :=
  (θ_run defs _ _).mono (fun _ h c =>
    ⟨((h c).1 1).trans (final m c),
     ((h c).1 0).trans (((dats m 0 c).arrAt_in 0 rfl _).trans ((A_eq m c 0).trans (V_main_arg0 m c)))⟩)
    (run_main m ρ)

end Cert.KernelIdeal.Affine

end
-- ==== Proof.Law.lean ====
/-
  The one law that joins the two programs, on the extended reals: `(x + 5) · 2 − 1 = x · 2 + 9`.

  For a real `x` it is distributivity and `10 − 1 = 9`. It also holds at both infinities: `+∞` is sent to `+∞` by each
  side (a sum with a real, a product with a positive real and a difference with a real all keep `+∞`), and `−∞` to
  `−∞` likewise. So it holds for every extended real, and nothing need be assumed of `x`.

  The four constants are exact in binary32; their words are read here, once.
-/
import Idealize.ShloMosaic.PureOps.Ideal

noncomputable section

namespace Cert.AffineLaw

open Idealize.ShloMosaic

/-- The word of `2.0` denotes `2`. -/
theorem word_two : Ideal.ofBits .f32 0x40000000#32 = ((2 : ℝ) : EReal) := by
  simp [Ideal.ofBits, Ideal.ieee, -EReal.coe_mul]; norm_num

/-- The word of `9.0` denotes `9`. -/
theorem word_nine : Ideal.ofBits .f32 0x41100000#32 = ((9 : ℝ) : EReal) := by
  simp [Ideal.ofBits, Ideal.ieee, -EReal.coe_mul]; norm_num

/-- The word of `5.0` denotes `5`. -/
theorem word_five : Ideal.ofBits .f32 0x40A00000#32 = ((5 : ℝ) : EReal) := by
  simp [Ideal.ofBits, Ideal.ieee, -EReal.coe_mul]; norm_num

/-- The word of `1.0` denotes `1`. -/
theorem word_one : Ideal.ofBits .f32 0x3F800000#32 = ((1 : ℝ) : EReal) := by
  simp [Ideal.ofBits, Ideal.ieee, -EReal.coe_mul]; norm_num

/-- `(x + 5) · 2 − 1 = x · 2 + 9` for every extended real `x`. -/
theorem affine_law (x : EReal) :
    (x + ((5 : ℝ) : EReal)) * ((2 : ℝ) : EReal) - ((1 : ℝ) : EReal) = x * ((2 : ℝ) : EReal) + ((9 : ℝ) : EReal) := by
  have h2 : (0 : ℝ) < 2 := by norm_num
  induction x using EReal.rec with
  | bot =>
    rw [EReal.bot_add, EReal.bot_mul_coe_of_pos h2, EReal.bot_sub, EReal.bot_add]
  | top =>
    rw [EReal.top_add_coe, EReal.top_mul_coe_of_pos h2, EReal.top_sub_coe, EReal.top_add_coe]
  | coe r =>
    rw [← EReal.coe_add, ← EReal.coe_mul, ← EReal.coe_sub, ← EReal.coe_mul, ← EReal.coe_add]
    exact congrArg _ (by ring)

end Cert.AffineLaw

end
-- ==== Proof.Reference.lean ====
/-
  The reference's result, entry by entry, as the kernel's map: the reference computes `(x + 5) · 2 − 1` by three
  lane-wise host operations over splats of the constants, and on the extended reals that is `x · 2 + 9` at every
  entry (`Cert.AffineLaw.affine_law`, which asks nothing of `x`).
-/
import proofs.«423164_j73667279061057_3_alg».proof.Proof.Gen.ReferenceIdeal.Run
import proofs.«423164_j73667279061057_3_alg».proof.Proof.Law

noncomputable section

namespace Cert.ReferenceIdeal.Affine

open Cert.ReferenceIdeal Cert.ReferenceIdeal.Gen Cert.ReferenceIdeal.Value
open Idealize.ShloMosaic Idealize.ShloMosaic.TcCoe

/-- The reference run's result term at an entry: `(x + 5) · 2 − 1` there, which is `x · 2 + 9`. -/
theorem ref_apply (x : FVec Ideal S8192x8192 .f32) (i : S8192x8192.Idx) :
    subf (mulf (addf x (broadcastInDim S8192x8192 ![] bcast_S_S8192x8192 (constant S_ .f32 0x40A00000#32)))
        (broadcastInDim S8192x8192 ![] bcast_S_S8192x8192 (constant S_ .f32 0x40000000#32)))
      (broadcastInDim S8192x8192 ![] bcast_S_S8192x8192 (constant S_ .f32 0x3F800000#32)) i
    = x i * ((2 : ℝ) : EReal) + ((9 : ℝ) : EReal) := by
  simp only [subf, mulf, addf, broadcastInDim, constant, Ideal.subf_def, Ideal.mulf_def, Ideal.addf_def, Ideal.ofBits_def,
    Cert.AffineLaw.word_five, Cert.AffineLaw.word_two, Cert.AffineLaw.word_one]
  exact Cert.AffineLaw.affine_law (x i)

end Cert.ReferenceIdeal.Affine

end
-- ==== Proof.lean ====
/-
  The kernel computes `x · 2 + 9` over f32[8192, 8192], one block of 320 rows per grid point; the reference computes
  `(x + 5) · 2 − 1`. Over the extended reals the two agree at every entry, for every `x`.

  The three frames. The kernel's program, as printed and idealized, runs its 26 points to the end; the last block
  overhangs the array by 128 rows, and what the body reads and writes past the array's end reaches neither array
  (Proof/BodyWords.lean and Proof/BodyIdeal.lean: one argument at two float instances). The reference is nine host
  operations; its frame is its run with the result dropped.

  The idealization rewrote nothing, so `preserves` asks nothing.

  The value. After the run the kernel's result array holds `x · 2 + 9` at every index (Proof/ArrayIdeal.lean: each
  point writes back its rows of that, and the 26 blocks cover the 8192 rows). The reference's result term at an
  index is `(x + 5) · 2 − 1`, which is `x · 2 + 9` (Proof/Reference.lean over Proof/Law.lean: by cases on `x`, real or
  either infinity). The law holds without any assumption on `x`, so the precondition is never opened.
-/
import proofs.«423164_j73667279061057_3_alg».proof.Defs
import proofs.«423164_j73667279061057_3_alg».proof.Proof.Gen.Kernel
import proofs.«423164_j73667279061057_3_alg».proof.Proof.Gen.KernelIdeal
import proofs.«423164_j73667279061057_3_alg».proof.Proof.Gen.ReferenceIdeal
import proofs.«423164_j73667279061057_3_alg».proof.Proof.Gen.ReferenceIdeal.Run
import proofs.«423164_j73667279061057_3_alg».proof.Proof.Gen.Pre_finite_inputs
import proofs.«423164_j73667279061057_3_alg».proof.Proof.BodyWords
import proofs.«423164_j73667279061057_3_alg».proof.Proof.ArrayIdeal
import proofs.«423164_j73667279061057_3_alg».proof.Proof.Reference

noncomputable section

namespace Cert.Proof

open Idealize.ShloMosaic Idealize.ShloMosaic.TcCoe Idealize.SL.Sem

/-- The kernel as printed runs, faults nowhere, and leaves `x` as it was. -/
theorem frame_words : Cert.frame_Kernel := fun m ρ _ => Cert.Kernel.Affine.frame (F := Bits) m ρ

/-- So does its idealization. -/
theorem frame_ideal : Cert.frame_KernelIdeal := fun m ρ _ => Cert.KernelIdeal.Affine.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The body's map of one entry, on the extended reals: the product with 2 and the sum with 9. -/
theorem aff_ideal (x : Ideal .f32) :
    Cert.KernelIdeal.Affine.aff (F := Ideal) x = x * ((2 : ℝ) : EReal) + ((9 : ℝ) : EReal) := by
  simp only [Cert.KernelIdeal.Affine.aff, Scalar.ofBits, Ideal.addf_def, Ideal.mulf_def, Ideal.ofBits_def,
    Cert.AffineLaw.word_two, Cert.AffineLaw.word_nine]

/-- From memories that agree on `x` both programs run, and the results are equal entry by entry: the kernel's is
    `x · 2 + 9` and the reference's `(x + 5) · 2 − 1`, one extended real. -/
theorem algebraic : Cert.algebraic_KernelIdeal_ReferenceIdeal := by
  intro m ρ m' ρ' _ hagree
  refine ⟨fun c => Cert.KernelIdeal.Affine.result (F := Ideal) m c, Cert.KernelIdeal.Affine.run (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  refine (Cert.ReferenceIdeal.Affine.ref_apply _ i).trans ?_
  rw [hagree c]
  exact (aff_ideal _).symm

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
